-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S200000x128 : Shape := ⟨2, ![200000, 128]⟩
abbrev S400000x1 : Shape := ⟨2, ![400000, 1]⟩
abbrev S128x128 : Shape := ⟨2, ![128, 128]⟩
abbrev S128 : Shape := ⟨1, ![128]⟩
abbrev S129x128 : Shape := ⟨2, ![129, 128]⟩
abbrev S1600000 : Shape := ⟨1, ![1600000]⟩
abbrev S_ : Shape := ⟨0, ![]⟩

class Facts : Prop where
  bcast_S_S200000x128 : S_.BroadcastsInDim S200000x128 (![] : Fin 0 → Fin S200000x128.rank)
  reducesTo_S200000x128_S_d0_1 : S200000x128.ReducesTo [0, 1] S_
  h_S_ : 0 < S_.numel
  bcast_S_S400000x1 : S_.BroadcastsInDim S400000x1 (![] : Fin 0 → Fin S400000x1.rank)
  reducesTo_S400000x1_S_d0_1 : S400000x1.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S129x128 : S_.BroadcastsInDim S129x128 (![] : Fin 0 → Fin S129x128.rank)
  reducesTo_S129x128_S_d0_1 : S129x128.ReducesTo [0, 1] S_

variable [Facts]

def fn_part1 {F : FTy → Type} [FloatOps F] (main_arg4 : FVec F S129x128 .f32) (main_arg5 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S129x128 .f32 := Host.absf main_arg4
  let main_cst_6 : FVec F S_ .f32 := constant S_ .f32 0x7F800000#32
  let main_v20 : FVec F S129x128 .f32 := broadcastInDim S129x128 ![] bcast_S_S129x128 main_cst_6
  let main_v21 : IVec S129x128 1 := cmpf .olt main_v19 main_v20
  let main_c_7 : IVec S_ 1 := constantI S_ 1 1#1
  let main_v22 : IVec S_ 1 := (fun x v => Host.reduce IntOp.andi x v reducesTo_S129x128_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  main_v28

def fn {F : FTy → Type} [FloatOps F] (main_arg0 : FVec F S200000x128 .f32) (main_arg1 : FVec F S400000x1 .f32) (main_arg2 : FVec F S128x128 .f32) (main_arg3 : FVec F S128 .f32) (main_arg4 : FVec F S129x128 .f32) (main_arg5 : FVec F S128 .f32) (main_arg6 : IVec S1600000 32) (main_arg7 : IVec S1600000 32) : IVec S_ 1 :=
  let main_v0 : FVec F S200000x128 .f32 := Host.absf main_arg0
  let main_cst : FVec F S_ .f32 := constant S_ .f32 0x7F800000#32
  let main_v1 : FVec F S200000x128 .f32 := broadcastInDim S200000x128 ![] bcast_S_S200000x128 main_cst
  let main_v2 : IVec S200000x128 1 := cmpf .olt main_v0 main_v1
  let main_c : IVec S_ 1 := constantI S_ 1 1#1
  let main_v3 : IVec S_ 1 := (fun x v => Host.reduce IntOp.andi x v reducesTo_S200000x128_S_d0_1 h_S_) main_v2 main_c
  let main_v4 : FVec F S400000x1 .f32 := Host.absf main_arg1
  let main_cst_0 : FVec F S_ .f32 := constant S_ .f32 0x7F800000#32
  let main_v5 : FVec F S400000x1 .f32 := broadcastInDim S400000x1 ![] bcast_S_S400000x1 main_cst_0
  let main_v6 : IVec S400000x1 1 := cmpf .olt main_v4 main_v5
  let main_c_1 : IVec S_ 1 := constantI S_ 1 1#1
  let main_v7 : IVec S_ 1 := (fun x v => Host.reduce IntOp.andi x v reducesTo_S400000x1_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_v13 main_v16
-- ==== Kernel.lean ====
abbrev S200000x128 : Shape := ⟨2, ![200000, 128]⟩
abbrev S400000x1 : Shape := ⟨2, ![400000, 1]⟩
abbrev S128x128 : Shape := ⟨2, ![128, 128]⟩
abbrev S128 : Shape := ⟨1, ![128]⟩
abbrev S129x128 : Shape := ⟨2, ![129, 128]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S400000x128 : Shape := ⟨2, ![400000, 128]⟩
abbrev S8000x128 : Shape := ⟨2, ![8000, 128]⟩
abbrev S1x128 : Shape := ⟨2, ![1, 128]⟩
abbrev S400000x129 : Shape := ⟨2, ![400000, 129]⟩
abbrev S1600000x129 : Shape := ⟨2, ![1600000, 129]⟩
abbrev S200000x129 : Shape := ⟨2, ![200000, 129]⟩
abbrev S8000x129 : Shape := ⟨2, ![8000, 129]⟩

abbrev nBuf : Space → Nat
  | .hbm => 37
  | .vmem => 12
  | .smem => 0
  | _ => 0

abbrev bufTy : (tb : Table) → Fin (tcTables nBuf tb) → BufTy
  | .hbm, ⟨0, _⟩ => ⟨S200000x128, .f32⟩
  | .hbm, ⟨1, _⟩ => ⟨S400000x1, .f32⟩
  | .hbm, ⟨2, _⟩ => ⟨S128x128, .f32⟩
  | .hbm, ⟨3, _⟩ => ⟨S128, .f32⟩
  | .hbm, ⟨4, _⟩ => ⟨S129x128, .f32⟩
  | .hbm, ⟨5, _⟩ => ⟨S128, .f32⟩
  | .hbm, ⟨6, _⟩ => ⟨S1600000, .i32⟩
  | .hbm, ⟨7, _⟩ => ⟨S1600000, .i32⟩
  | .hbm, ⟨8, _⟩ => ⟨S_, .i32⟩
  | .hbm, ⟨9, _⟩ => ⟨S1600000, .i32⟩
  | .hbm, ⟨10, _⟩ => ⟨S1600000, .i1⟩
  | .hbm, ⟨11, _⟩ => ⟨S_, .i32⟩
  | .hbm, ⟨12, _⟩ => ⟨S1600000, .i32⟩
  | .hbm, ⟨13, _⟩ => ⟨S1600000, .i32⟩
  | .hbm, ⟨14, _⟩ => ⟨S1600000, .i32⟩
  | .hbm, ⟨15, _⟩ => ⟨S1600000x1, .i32⟩
  | .hbm, ⟨16, _⟩ => ⟨S1600000x128, .f32⟩
  | .hbm, ⟨17, _⟩ => ⟨S_, .f32⟩
  | .hbm, ⟨18, _⟩ => ⟨S400000x128, .f32⟩
  | .hbm, ⟨19, _⟩ => ⟨S1600000x1, .i32⟩
  | .hbm, ⟨20, _⟩ => ⟨S400000x128, .f32⟩
  | .hbm, ⟨21, _⟩ => ⟨S400000x128, .f32⟩
  | .hbm, ⟨22, _⟩ => ⟨S400000x129, .f32⟩
  | .hbm, ⟨23, _⟩ => ⟨S_, .i32⟩
  | .hbm, ⟨24, _⟩ => ⟨S1600000, .i32⟩
  | .hbm, ⟨25, _⟩ => ⟨S1600000, .i1⟩
  | .hbm, ⟨26, _⟩ => ⟨S_, .i32⟩
  | .hbm, ⟨27, _⟩ => ⟨S1600000, .i32⟩
  | .hbm, ⟨28, _⟩ => ⟨S1600000, .i32⟩
  | .hbm, ⟨29, _⟩ => ⟨S1600000, .i32⟩
  | .hbm, ⟨30, _⟩ => ⟨S1600000x1, .i32⟩
  | .hbm, ⟨31, _⟩ => ⟨S1600000x129, .f32⟩
  | .hbm, ⟨32, _⟩ => ⟨S_, .f32⟩
  | .hbm, ⟨33, _⟩ => ⟨S200000x129, .f32⟩
  | .hbm, ⟨34, _⟩ => ⟨S1600000x1, .i32⟩
  | .hbm, ⟨35, _⟩ => ⟨S200000x129, .f32⟩
  | .hbm, ⟨36, _⟩ => ⟨S200000x128, .f32⟩
  | .local _ .vmem, ⟨0, _⟩ => ⟨S8000x128, .f32⟩
  | .local _ .vmem, ⟨1, _⟩ => ⟨S8000x128, .f32⟩
  | .local _ .vmem, ⟨2, _⟩ => ⟨S128x128, .f32⟩
  | .local _ .vmem, ⟨3, _⟩ => ⟨S128, .f32⟩
  | .local _ .vmem, ⟨4, _⟩ => ⟨S8000x128, .f32⟩
  | .local _ .vmem, ⟨5, _⟩ => ⟨S8000x128, .f32⟩
  | .local _ .vmem, ⟨6, _⟩ => ⟨S8000x129, .f32⟩
  | .local _ .vmem, ⟨7, _⟩ => ⟨S8000x129, .f32⟩
  | .local _ .vmem, ⟨8, _⟩ => ⟨S129x128, .f32⟩
  | .local _ .vmem, ⟨9, _⟩ => ⟨S128, .f32⟩
  | .local _ .vmem, ⟨10, _⟩ => ⟨S8000x128, .f32⟩
  | .local _ .vmem, ⟨11, _⟩ => ⟨S8000x128, .f32⟩
  | _, _ => ⟨S200000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_v0 : Ref sig .tc := ⟨.hbm, 9, rfl⟩
abbrev main_v1 : Ref sig .tc := ⟨.hbm, 10, rfl⟩
abbrev main_c_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_c_1 : Ref sig .tc := ⟨.hbm, 23, rfl⟩
abbrev main_v12 : Ref sig .tc := ⟨.hbm, 24, rfl⟩
abbrev main_v13 : Ref sig .tc := ⟨.hbm, 25, rfl⟩
abbrev main_c_2 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_3 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S8000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S8000x129 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S129x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S8000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S400000x128 : S_.BroadcastsInDim S400000x128 (![] : Fin 0 → Fin S400000x128.rank)
  inb_S8000x128_S8000x128_0_0 : ∀ a, (![0, 0] : Fin 2 → Nat) a + S8000x128.size a ≤ S8000x128.size a
  h_S8000x128 : 0 < S8000x128.numel
  shapeCasts_S8000x128_S8000x128 : S8000x128.ShapeCasts S8000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S128_S128_0 : ∀ a, (![0] : Fin 1 → Nat) a + S128.size a ≤ S128.size a
  h_S128 : 0 < S128.numel
  shapeCasts_S128_S1x128 : S128.ShapeCasts S1x128
  shapeCasts_S1x128_S1x128 : S1x128.ShapeCasts S1x128
  broadcasts_S1x128_S8000x128 : S1x128.Broadcasts S8000x128
  concatenates_S400000x128_S400000x1_S400000x129_d1 : Shape.Concatenates [S400000x128, S400000x1] S400000x129 1
  bcast_S_S200000x129 : S_.BroadcastsInDim S200000x129 (![] : Fin 0 → Fin S200000x129.rank)
  inb_S8000x129_S8000x129_0_0 : ∀ a, (![0, 0] : Fin 2 → Nat) a + S8000x129.size a ≤ S8000x129.size a
  h_S8000x129 : 0 < S8000x129.numel
  shapeCasts_S8000x129_S8000x129 : S8000x129.ShapeCasts S8000x129
  inb_S129x128_S129x128_0_0 : ∀ a, (![0, 0] : Fin 2 → Nat) a + S129x128.size a ≤ S129x128.size a
  h_S129x128 : 0 < S129x128.numel
  gather_S200000x128_S1600000x1_S1600000x128_1_0_n_n_0_1_1128_wf : GatherDims.WF S200000x128 S1600000x1 S1600000x128 [1] [0] [] [0] [] 1 ![1, 128]
  scatter_S400000x128_S1600000x1_S1600000x128_1_0_0_1_wf : ScatterDims.WF S400000x128 S1600000x1 S1600000x128 [1] [0] [0] 1
  dot_S8000x128_S128x128_S8000x128_1_0_0_1_n_n_wf : DotDims.WF S8000x128 S128x128 S8000x128 [1] [0] [0] [1] [] []
  gather_S400000x129_S1600000x1_S1600000x129_1_0_n_n_0_1_1129_wf : GatherDims.WF S400000x129 S1600000x1 S1600000x129 [1] [0] [] [0] [] 1 ![1, 129]
  scatter_S200000x129_S1600000x1_S1600000x129_1_0_0_1_wf : ScatterDims.WF S200000x129 S1600000x1 S1600000x129 [1] [0] [0] 1
  dot_S8000x129_S129x128_S8000x128_1_0_0_1_n_n_wf : DotDims.WF S8000x129 S129x128 S8000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8000x128.size a ≤ S400000x128.size a
  hwx0_0 : ∀ i : grid0.Coords, EltTy.bits .f32 = 32 ∨ (Rect.block (s := S400000x128) S8000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128.size a ≤ S128.size a
  hwx0_2 : ∀ i : grid0.Coords, EltTy.bits .f32 = 32 ∨ (Rect.block (s := S128) S128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8000x128.size a ≤ S400000x128.size a
  hwx0_3 : ∀ i : grid0.Coords, EltTy.bits .f32 = 32 ∨ (Rect.block (s := S400000x128) S8000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8000x129.size a ≤ S200000x129.size a
  hwx1_0 : ∀ i : grid1.Coords, EltTy.bits .f32 = 32 ∨ (Rect.block (s := S200000x129) S8000x129.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S129x128.size a ≤ S129x128.size a
  hwx1_1 : ∀ i : grid1.Coords, EltTy.bits .f32 = 32 ∨ (Rect.block (s := S129x128) S129x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128.size a ≤ S128.size a
  hwx1_2 : ∀ i : grid1.Coords, EltTy.bits .f32 = 32 ∨ (Rect.block (s := S128) S128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S8000x128.size a ≤ S200000x128.size a
  hwx1_3 : ∀ i : grid1.Coords, EltTy.bits .f32 = 32 ∨ (Rect.block (s := S200000x128) S8000x128.size (cc1_transform_3 i) (hinb1_3 i)).WholeWords (EltTy.packing .f32)

variable [Facts₀]

def gather_S200000x128_S1600000x1_S1600000x128_1_0_n_n_0_1_1128 : GatherDims S200000x128 S1600000x1 S1600000x128 where
  offsetDims := [1]
  collapsedSliceDims := [0]
  operandBatchingDims := []
  startIndicesBatchingDims := []
  startIndexMap := [0]
  indexVectorDim := 1
  sliceSizes := ![1, 128]
  wf := gather_S200000x128_S1600000x1_S1600000x128_1_0_n_n_0_1_1128_wf
def scatter_S400000x128_S1600000x1_S1600000x128_1_0_0_1 : ScatterDims S400000x128 S1600000x1 S1600000x128 where
  updateWindowDims := [1]
  insertedWindowDims := [0]
  scatterDimsToOperandDims := [0]
  indexVectorDim := 1
  wf := scatter_S400000x128_S1600000x1_S1600000x128_1_0_0_1_wf
def dot_S8000x128_S128x128_S8000x128_1_0_0_1_n_n : DotDims S8000x128 S128x128 S8000x128 where
  lhsContracting := [1]
  rhsContracting := [0]
  lhsNonContracting := [0]
  rhsNonContracting := [1]
  lhsBatch := []
  rhsBatch := []
  wf := dot_S8000x128_S128x128_S8000x128_1_0_0_1_n_n_wf
def gather_S400000x129_S1600000x1_S1600000x129_1_0_n_n_0_1_1129 : GatherDims S400000x129 S1600000x1 S1600000x129 where
  offsetDims := [1]
  collapsedSliceDims := [0]
  operandBatchingDims := []
  startIndicesBatchingDims := []
  startIndexMap := [0]
  indexVectorDim := 1
  sliceSizes := ![1, 129]
  wf := gather_S400000x129_S1600000x1_S1600000x129_1_0_n_n_0_1_1129_wf
def scatter_S200000x129_S1600000x1_S1600000x129_1_0_0_1 : ScatterDims S200000x129 S1600000x1 S1600000x129 where
  updateWindowDims := [1]
  insertedWindowDims := [0]
  scatterDimsToOperandDims := [0]
  indexVectorDim := 1
  wf := scatter_S200000x129_S1600000x1_S1600000x129_1_0_0_1_wf
def dot_S8000x129_S129x128_S8000x128_1_0_0_1_n_n : DotDims S8000x129 S129x128 S8000x128 where
  lhsContracting := [1]
  rhsContracting := [0]
  lhsNonContracting := [0]
  rhsNonContracting := [1]
  lhsBatch := []
  rhsBatch := []
  wf := dot_S8000x129_S129x128_S8000x128_1_0_0_1_n_n_wf

abbrev win0_0 : Pipeline.Window sig grid0 :=
  Pipeline.Window.ofSpec (Memref.whole main_v9) S8000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v10) S8000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v21) S8000x129.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S129x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v22) S8000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S200000x128 : Shape := ⟨2, ![200000, 128]⟩
abbrev S400000x1 : Shape := ⟨2, ![400000, 1]⟩
abbrev S128x128 : Shape := ⟨2, ![128, 128]⟩
abbrev S128 : Shape := ⟨1, ![128]⟩
abbrev S129x128 : Shape := ⟨2, ![129, 128]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S400000x128 : Shape := ⟨2, ![400000, 128]⟩
abbrev S1x128 : Shape := ⟨2, ![1, 128]⟩
abbrev S400000x129 : Shape := ⟨2, ![400000, 129]⟩
abbrev S1600000x129 : Shape := ⟨2, ![1600000, 129]⟩
abbrev S200000x129 : Shape := ⟨2, ![200000, 129]⟩

abbrev nBuf : Space → Nat
  | .hbm => 49
  | .vmem => 0
  | .smem => 0
  | _ => 0

abbrev bufTy : (tb : Table) → Fin (tcTables nBuf tb) → BufTy
  | .hbm, ⟨0, _⟩ => ⟨S200000x128, .f32⟩
  | .hbm, ⟨1, _⟩ => ⟨S400000x1, .f32⟩
  | .hbm, ⟨2, _⟩ => ⟨S128x128, .f32⟩
  | .hbm, ⟨3, _⟩ => ⟨S128, .f32⟩
  | .hbm, ⟨4, _⟩ => ⟨S129x128, .f32⟩
  | .hbm, ⟨5, _⟩ => ⟨S128, .f32⟩
  | .hbm, ⟨6, _⟩ => ⟨S1600000, .i32⟩
  | .hbm, ⟨7, _⟩ => ⟨S1600000, .i32⟩
  | .hbm, ⟨8, _⟩ => ⟨S_, .i32⟩
  | .hbm, ⟨9, _⟩ => ⟨S1600000, .i32⟩
  | .hbm, ⟨10, _⟩ => ⟨S1600000, .i1⟩
  | .hbm, ⟨11, _⟩ => ⟨S_, .i32⟩
  | .hbm, ⟨12, _⟩ => ⟨S1600000, .i32⟩
  | .hbm, ⟨13, _⟩ => ⟨S1600000, .i32⟩
  | .hbm, ⟨14, _⟩ => ⟨S1600000, .i32⟩
  | .hbm, ⟨15, _⟩ => ⟨S1600000x1, .i32⟩
  | .hbm, ⟨16, _⟩ => ⟨S1600000x128, .f32⟩
  | .hbm, ⟨17, _⟩ => ⟨S_, .f32⟩
  | .hbm, ⟨18, _⟩ => ⟨S400000x128, .f32⟩
  | .hbm, ⟨19, _⟩ => ⟨S1600000x1, .i32⟩
  | .hbm, ⟨20, _⟩ => ⟨S400000x128, .f32⟩
  | .hbm, ⟨21, _⟩ => ⟨S400000x128, .f32⟩
  | .hbm, ⟨22, _⟩ => ⟨S1x128, .f32⟩
  | .hbm, ⟨23, _⟩ => ⟨S400000x128, .f32⟩
  | .hbm, ⟨24, _⟩ => ⟨S400000x128, .f32⟩
  | .hbm, ⟨25, _⟩ => ⟨S_, .f32⟩
  | .hbm, ⟨26, _⟩ => ⟨S400000x128, .f32⟩
  | .hbm, ⟨27, _⟩ => ⟨S400000x128, .f32⟩
  | .hbm, ⟨28, _⟩ => ⟨S400000x129, .f32⟩
  | .hbm, ⟨29, _⟩ => ⟨S_, .i32⟩
  | .hbm, ⟨30, _⟩ => ⟨S1600000, .i32⟩
  | .hbm, ⟨31, _⟩ => ⟨S1600000, .i1⟩
  | .hbm, ⟨32, _⟩ => ⟨S_, .i32⟩
  | .hbm, ⟨33, _⟩ => ⟨S1600000, .i32⟩
  | .hbm, ⟨34, _⟩ => ⟨S1600000, .i32⟩
  | .hbm, ⟨35, _⟩ => ⟨S1600000, .i32⟩
  | .hbm, ⟨36, _⟩ => ⟨S1600000x1, .i32⟩
  | .hbm, ⟨37, _⟩ => ⟨S1600000x129, .f32⟩
  | .hbm, ⟨38, _⟩ => ⟨S_, .f32⟩
  | .hbm, ⟨39, _⟩ => ⟨S200000x129, .f32⟩
  | .hbm, ⟨40, _⟩ => ⟨S1600000x1, .i32⟩
  | .hbm, ⟨41, _⟩ => ⟨S200000x129, .f32⟩
  | .hbm, ⟨42, _⟩ => ⟨S200000x128, .f32⟩
  | .hbm, ⟨43, _⟩ => ⟨S1x128, .f32⟩
  | .hbm, ⟨44, _⟩ => ⟨S200000x128, .f32⟩
  | .hbm, ⟨45, _⟩ => ⟨S200000x128, .f32⟩
  | .hbm, ⟨46, _⟩ => ⟨S_, .f32⟩
  | .hbm, ⟨47, _⟩ => ⟨S200000x128, .f32⟩
  | .hbm, ⟨48, _⟩ => ⟨S200000x128, .f32⟩
  | _, _ => ⟨S200000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_v0 : Ref sig .tc := ⟨.hbm, 9, rfl⟩
abbrev main_v1 : Ref sig .tc := ⟨.hbm, 10, rfl⟩
abbrev main_c_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_call0_cst : Ref sig .tc := ⟨.hbm, 25, rfl⟩
abbrev main_call0_v0 : Ref sig .tc := ⟨.hbm, 26, rfl⟩
abbrev main_v14 : Ref sig .tc := ⟨.hbm, 27, rfl⟩
abbrev main_v15 : Ref sig .tc := ⟨.hbm, 28, rfl⟩
abbrev main_c_1 : Ref sig .tc := ⟨.hbm, 29, rfl⟩
abbrev main_v16 : Ref sig .tc := ⟨.hbm, 30, rfl⟩
abbrev main_v17 : Ref sig .tc := ⟨.hbm, 31, rfl⟩
abbrev main_c_2 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_cst_3 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_call1_cst : Ref sig .tc := ⟨.hbm, 46, rfl⟩
abbrev main_call1_v0 : Ref sig .tc := ⟨.hbm, 47, rfl⟩
abbrev main_v30 : Ref sig .tc := ⟨.hbm, 48, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S400000x128 : S_.BroadcastsInDim S400000x128 (![] : Fin 0 → Fin S400000x128.rank)
  bcast_S128_S1x128_1 : S128.BroadcastsInDim S1x128 (![1] : Fin 1 → Fin S1x128.rank)
  bcast_S1x128_S400000x128_0_1 : S1x128.BroadcastsInDim S400000x128 (![0, 1] : Fin 2 → Fin S400000x128.rank)
  concatenates_S400000x128_S400000x1_S400000x129_d1 : Shape.Concatenates [S400000x128, S400000x1] S400000x129 1
  bcast_S_S200000x129 : S_.BroadcastsInDim S200000x129 (![] : Fin 0 → Fin S200000x129.rank)
  bcast_S1x128_S200000x128_0_1 : S1x128.BroadcastsInDim S200000x128 (![0, 1] : Fin 2 → Fin S200000x128.rank)
  bcast_S_S200000x128 : S_.BroadcastsInDim S200000x128 (![] : Fin 0 → Fin S200000x128.rank)
  gather_S200000x128_S1600000x1_S1600000x128_1_0_n_n_0_1_1128_wf : GatherDims.WF S200000x128 S1600000x1 S1600000x128 [1] [0] [] [0] [] 1 ![1, 128]
  scatter_S400000x128_S1600000x1_S1600000x128_1_0_0_1_wf : ScatterDims.WF S400000x128 S1600000x1 S1600000x128 [1] [0] [0] 1
  dot_S400000x128_S128x128_S400000x128_1_0_0_1_n_n_wf : DotDims.WF S400000x128 S128x128 S400000x128 [1] [0] [0] [1] [] []
  gather_S400000x129_S1600000x1_S1600000x129_1_0_n_n_0_1_1129_wf : GatherDims.WF S400000x129 S1600000x1 S1600000x129 [1] [0] [] [0] [] 1 ![1, 129]
  scatter_S200000x129_S1600000x1_S1600000x129_1_0_0_1_wf : ScatterDims.WF S200000x129 S1600000x1 S1600000x129 [1] [0] [0] 1
  dot_S200000x129_S129x128_S200000x128_1_0_0_1_n_n_wf : DotDims.WF S200000x129 S129x128 S200000x128 [1] [0] [0] [1] [] []

variable [Facts₀]

def gather_S200000x128_S1600000x1_S1600000x128_1_0_n_n_0_1_1128 : GatherDims S200000x128 S1600000x1 S1600000x128 where
  offsetDims := [1]
  collapsedSliceDims := [0]
  operandBatchingDims := []
  startIndicesBatchingDims := []
  startIndexMap := [0]
  indexVectorDim := 1
  sliceSizes := ![1, 128]
  wf := gather_S200000x128_S1600000x1_S1600000x128_1_0_n_n_0_1_1128_wf
def scatter_S400000x128_S1600000x1_S1600000x128_1_0_0_1 : ScatterDims S400000x128 S1600000x1 S1600000x128 where
  updateWindowDims := [1]
  insertedWindowDims := [0]
  scatterDimsToOperandDims := [0]
  indexVectorDim := 1
  wf := scatter_S400000x128_S1600000x1_S1600000x128_1_0_0_1_wf
def dot_S400000x128_S128x128_S400000x128_1_0_0_1_n_n : DotDims S400000x128 S128x128 S400000x128 where
  lhsContracting := [1]
  rhsContracting := [0]
  lhsNonContracting := [0]
  rhsNonContracting := [1]
  lhsBatch := []
  rhsBatch := []
  wf := dot_S400000x128_S128x128_S400000x128_1_0_0_1_n_n_wf
def gather_S400000x129_S1600000x1_S1600000x129_1_0_n_n_0_1_1129 : GatherDims S400000x129 S1600000x1 S1600000x129 where
  offsetDims := [1]
  collapsedSliceDims := [0]
  operandBatchingDims := []
  startIndicesBatchingDims := []
  startIndexMap := [0]
  indexVectorDim := 1
  sliceSizes := ![1, 129]
  wf := gather_S400000x129_S1600000x1_S1600000x129_1_0_n_n_0_1_1129_wf
def scatter_S200000x129_S1600000x1_S1600000x129_1_0_0_1 : ScatterDims S200000x129 S1600000x1 S1600000x129 where
  updateWindowDims := [1]
  insertedWindowDims := [0]
  scatterDimsToOperandDims := [0]
  indexVectorDim := 1
  wf := scatter_S200000x129_S1600000x1_S1600000x129_1_0_0_1_wf
def dot_S200000x129_S129x128_S200000x128_1_0_0_1_n_n : DotDims S200000x129 S129x128 S200000x128 where
  lhsContracting := [1]
  rhsContracting := [0]
  lhsNonContracting := [0]
  rhsNonContracting := [1]
  lhsBatch := []
  rhsBatch := []
  wf := dot_S200000x129_S129x128_S200000x128_1_0_0_1_n_n_wf

class Facts : Prop extends Facts₀ where

variable [Facts]
-- ==== Proof.Dense.lean ====
/-
  A dense layer with a rectified output, `max (x · w + b) 0`, as ONE function of whole arrays at the ideal values,
  where a float is an extended real and a change of float format is the identity.

  `dense x w b` at row `a`, column `j` is `max (∑ₖ x[a,k] · w[k,j] + b[j]) 0`. Three facts about it:
  * a row block of the result is the same function of the row block of `x` (the weights and the bias whole), because
    an entry of the result reads one row of `x` only (`dense_congr`);
  * the spelling with a matrix product accumulated into a zero splat of operands narrowed to bf16, the bias cast to one
    row and broadcast down the rows, and a maximum with a splat of zero, is `dense` (`dense_of_matmul`): narrowing is
    the identity on extended reals, and `0 + s = s`;
  * the spelling with the product that has no accumulator, the bias broadcast along axis 1 in two steps, and a maximum
    with a broadcast zero constant, is `dense` too (`dense_of_dotGeneral`).
  No law of the extended reals beyond `0 + s = s` is used, so nothing here needs the entries to be finite.
-/
import Idealize.ShloMosaic.Lib.KernelVsHost
import Idealize.ShloMosaic.Lib.StackMember
import Idealize.ShloMosaic.Lib.ValueIdx
import Idealize.ShloMosaic.Lib.Pipeline.Value
import Idealize.ShloMosaic.PureOps.Ideal.Laws

noncomputable section

namespace Cert.Dense

open Idealize.ShloMosaic Idealize.ShloMosaic.ValueIdx

/-- An all-zero offset, at rank 2 and at rank 1: where a body's whole-buffer loads and stores start. -/
theorem off2 : (![0, 0] : Fin 2 → Nat) = fun _ => 0 := funext fun a => by fin_cases a <;> rfl
theorem off1 : (![0] : Fin 1 → Nat) = fun _ => 0 := funext fun a => by fin_cases a; rfl

variable {M K N : Nat}

/-- The layer, entry by entry: the row of `x` against the column of `w`, plus the bias entry of the column, cut below at zero. -/
def dense (x : FVec Ideal ⟨2, ![M, K]⟩ .f32) (w : FVec Ideal ⟨2, ![K, N]⟩ .f32) (b : FVec Ideal ⟨1, ![N]⟩ .f32) :
    FVec Ideal ⟨2, ![M, N]⟩ .f32 :=
  fun i => max ((∑ k : Fin K, x (ix2 (i 0 : Fin M) k) * w (ix2 k (i 1 : Fin N))) + b (ix1 (i 1 : Fin N))) (0 : EReal)

theorem dense_apply (x : FVec Ideal ⟨2, ![M, K]⟩ .f32) (w : FVec Ideal ⟨2, ![K, N]⟩ .f32) (b : FVec Ideal ⟨1, ![N]⟩ .f32)
    (a : Fin M) (j : Fin N) :
    dense x w b (ix2 a j) = max ((∑ k : Fin K, x (ix2 a k) * w (ix2 k j)) + b (ix1 j)) (0 : EReal) := rfl

/-- The layer of equal arrays is the same array. -/
theorem dense_eq {x x' : FVec Ideal ⟨2, ![M, K]⟩ .f32} {w w' : FVec Ideal ⟨2, ![K, N]⟩ .f32} {b b' : FVec Ideal ⟨1, ![N]⟩ .f32}
    (hx : x = x') (hw : w = w') (hb : b = b') : dense x w b = dense x' w' b' := by rw [hx, hw, hb]

/-- ROW BLOCKS. If row `r` of `xb` is row `a` of `x`, and column `j` of `wb` and entry `j` of `bb` are those of `w` and `b`,
    then entry (r, j) of `dense xb wb bb` is entry (a, j) of `dense x w b`: an entry of the layer reads one row of the
    input, one column of the weights and one entry of the bias. -/
theorem dense_congr {Mb : Nat} (x : FVec Ideal ⟨2, ![M, K]⟩ .f32) (xb : FVec Ideal ⟨2, ![Mb, K]⟩ .f32)
    (w wb : FVec Ideal ⟨2, ![K, N]⟩ .f32) (b bb : FVec Ideal ⟨1, ![N]⟩ .f32) (r : Fin Mb) (a : Fin M) (j : Fin N)
    (hx : ∀ k : Fin K, xb (ix2 r k) = x (ix2 a k)) (hw : ∀ k : Fin K, wb (ix2 k j) = w (ix2 k j)) (hb : bb (ix1 j) = b (ix1 j)) :
    dense xb wb bb (ix2 r j) = dense x w b (ix2 a j) := by
  rw [dense_apply, dense_apply, hb]
  exact congrArg (fun s => max (s + b (ix1 j)) (0 : EReal)) (Finset.sum_congr rfl fun k _ => by rw [hx k, hw k])

/-- THE HOST'S SPELLING: `dot_general` with no accumulator, the bias broadcast to one row and then down the rows, a
    maximum with the zero constant broadcast to the result's shape. -/
theorem dense_of_dotGeneral (x : FVec Ideal ⟨2, ![M, K]⟩ .f32) (w : FVec Ideal ⟨2, ![K, N]⟩ .f32) (b : FVec Ideal ⟨1, ![N]⟩ .f32)
    (prec : Option ContractPrecision)
    (h1 : (⟨1, ![N]⟩ : Shape).BroadcastsInDim ⟨2, ![1, N]⟩ ![1])
    (h2 : (⟨2, ![1, N]⟩ : Shape).BroadcastsInDim ⟨2, ![M, N]⟩ ![0, 1])
    (h0 : (⟨0, ![]⟩ : Shape).BroadcastsInDim ⟨2, ![M, N]⟩ ![]) :
    maximumf (addf (Host.dotGeneral (DotDims.plain M K N) prec x w)
        (broadcastInDim ⟨2, ![M, N]⟩ ![0, 1] h2 (broadcastInDim ⟨2, ![1, N]⟩ ![1] h1 b)))
      (broadcastInDim ⟨2, ![M, N]⟩ ![] h0 (constant (F := Ideal) ⟨0, ![]⟩ .f32 0x00000000#32))
      = dense x w b := by
  funext i
  obtain ⟨a, j, rfl⟩ : ∃ (a : Fin M) (j : Fin N), i = ix2 a j := ⟨i 0, i 1, eq_ix2 i⟩
  rw [dense_apply, maximumf_apply, addf_apply, StackMember.dotGeneral_plain_apply, broadcastInDim_oneRow_apply h2 _ a j,
    broadcastInDim_constant]
  have e1 : broadcastInDim ⟨2, ![1, N]⟩ ![1] h1 b (ix2 (0 : Fin 1) j) = b (ix1 j) :=
    broadcastInDim_apply ![1] h1 b (ix2 (0 : Fin 1) j) (ix1 j) (by
      intro c
      match c with
      | ⟨0, _⟩ =>
        show j.val = if N = 1 then 0 else j.val
        split
        · have := j.isLt; omega
        · rfl)
  rw [e1]
  show max _ (Ideal.ofBits .f32 0x00000000#32) = _
  rw [Ideal.ofBits_zero_f32]

/-- THE KERNEL'S SPELLING: operands narrowed to bf16 (the identity on extended reals), a matrix product accumulated into a
    zero splat, the bias cast to one row and broadcast down the rows, a maximum with a splat of the zero scalar. -/
theorem dense_of_matmul (x : FVec Ideal ⟨2, ![M, K]⟩ .f32) (w : FVec Ideal ⟨2, ![K, N]⟩ .f32) (b : FVec Ideal ⟨1, ![N]⟩ .f32)
    (prec : Option ContractPrecision)
    (hx : (⟨2, ![M, K]⟩ : Shape).ShapeCasts ⟨2, ![M, K]⟩) (hlt : FTy.bits .bf16 < FTy.bits .f32)
    (hc1 : (⟨1, ![N]⟩ : Shape).ShapeCasts ⟨2, ![1, N]⟩) (hc2 : (⟨2, ![1, N]⟩ : Shape).ShapeCasts ⟨2, ![1, N]⟩)
    (hb : (⟨2, ![1, N]⟩ : Shape).Broadcasts ⟨2, ![M, N]⟩) :
    maximumf (addf (matmul (DotDims.plain M K N) prec (truncf .bf16 (shapeCast ⟨2, ![M, K]⟩ x hx) hlt) (truncf .bf16 w hlt)
          (constant ⟨2, ![M, N]⟩ .f32 0x00000000#32))
        (broadcastTo ⟨2, ![M, N]⟩ (shapeCast ⟨2, ![1, N]⟩ (shapeCast ⟨2, ![1, N]⟩ b hc1) hc2) hb))
      (broadcast ⟨2, ![M, N]⟩ (Scalar.ofBits (F := Ideal) .f32 0x00000000#32))
      = dense x w b := by
  rw [shapeCast_self x hx, shapeCast_self _ hc2, matmul_zero_eq_dotGeneral]
  funext i
  obtain ⟨a, j, rfl⟩ : ∃ (a : Fin M) (j : Fin N), i = ix2 a j := ⟨i 0, i 1, eq_ix2 i⟩
  rw [dense_apply, maximumf_apply, addf_apply, broadcast_apply]
  have ed : Host.dotGeneral (DotDims.plain M K N) prec (truncf .bf16 x hlt) (truncf .bf16 w hlt) (ix2 a j)
      = ∑ k : Fin K, x (ix2 a k) * w (ix2 k j) :=
    StackMember.dotGeneral_plain_apply prec (truncf .bf16 x hlt) (truncf .bf16 w hlt) a j
  have e1 := broadcastTo_apply (shapeCast ⟨2, ![1, N]⟩ b hc1) hb (ix2 a j) (ix2 (0 : Fin 1) j) (by
    intro c
    match c with
    | ⟨0, _⟩ => rfl
    | ⟨1, _⟩ =>
      show j.val = if N = 1 then 0 else j.val
      split
      · have := j.isLt; omega
      · rfl)
  have e2 := shapeCast_apply b hc1 (ix2 (0 : Fin 1) j) (ix1 j) (by
    rw [Shape.rowMajor_val_two, Shape.rowMajor_val_one]; show j.val = 0 * N + j.val; omega)
  rw [ed, e1, e2]
  show max _ (Ideal.ofBits .f32 0x00000000#32) = _
  rw [Ideal.ofBits_zero_f32]

end Cert.Dense

end
-- ==== Proof.Region0.lean ====
/-
  REGION 0 of the idealized kernel program, read as a value: the first dense layer, `max (h · W + b) 0` over the
  400000 × 128 clause array, computed 8000 rows at a time at 50 grid points.

  At any contents `V` of the TensorCore's buffers when the region is entered:
  * the body's one stored value is the layer of the three loaded blocks (`pay0`);
  * block `t` of the input is rows `8000·t … 8000·t + 7999` of the array, the weight and bias blocks are their whole
    arrays (`blk0_x`, `blk0_w`, `blk0_b`: a block's coordinate is index × size + the coordinate inside the block);
  * so what point `t` writes back is block `t` of the layer of the WHOLE arrays (`flushed0`);
  * the 50 output blocks tile the array — row `i` lies in block `i / 8000` — (`cover0`), so the output array ends
    holding the layer of the whole arrays (`final0`).
-/
import proofs.«155505_j24507083391230_1_alg».proof.Proof.Gen.KernelIdeal.Frame
import proofs.«155505_j24507083391230_1_alg».proof.Proof.Dense
import Idealize.ShloMosaic.Lib.Pipeline.Value

set_option maxRecDepth 16384

noncomputable section

namespace Cert.KernelIdeal.Arrays

open Cert.KernelIdeal Cert.KernelIdeal.Gen Cert.Dense
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- The three arrays region 0 reads, as it finds them: the scatter-summed clause features, the weights, the bias. -/
abbrev X0 (c : Dev nD) : FVec Ideal S400000x128 .f32 := V c main_v9
abbrev Wt0 (c : Dev nD) : FVec Ideal S128x128 .f32 := V c main_arg2
abbrev B0 (c : Dev nD) : FVec Ideal S128 .f32 := V c main_arg3

/-- The body's stored value is the layer of its three loaded blocks: the printed dimension record is the plain
    rows × contraction by contraction × columns product. -/
theorem pay0 (x0 : Vec Ideal S8000x128 .f32) (x1 : Vec Ideal S128x128 .f32) (x2 : Vec Ideal S128 .f32) :
    k0_pay1 (F := Ideal) x0 x1 x2 = dense (M := 8000) (K := 128) (N := 128) x0 x1 x2 := by
  unfold k0_pay1
  exact dense_of_matmul (M := 8000) (K := 128) (N := 128) x0 x1 x2 none _ _ _ _ _

/-- The printed index maps over the 50 points: the input's and the output's row-block index is the point, every other
    block index is zero. -/
theorem idx0 : ∀ t : Fin cfg0.N, win0_0.index t (0 : Fin 2) = t.val ∧ win0_0.index t (1 : Fin 2) = 0
    ∧ win0_1.index t (0 : Fin 2) = 0 ∧ win0_1.index t (1 : Fin 2) = 0 ∧ win0_2.index t (0 : Fin 1) = 0
    ∧ win0_3.index t (0 : Fin 2) = t.val ∧ win0_3.index t (1 : Fin 2) = 0 :=
  (by decide +kernel : ∀ t : Fin grid0.N, _)

theorem lt0 (t : Fin cfg0.N) : t.val < 50 := N_0 ▸ t.isLt

/-- Row `r` of the input block at point `t` is row `8000·t + r` of the array. -/
theorem blk0_x (c : Dev nD) (t : Fin cfg0.N) (r : Fin 8000) (k : Fin 128) (a : Fin 400000) (ha : a.val = t.val * 8000 + r.val) :
    iblk0 V c 0 t (ix2 r k) = X0 V c (ix2 a k) := by
  obtain ⟨e0, e1, -⟩ := idx0 t
  show V c main_v9 (((cfg0.win 0).blk t).view.emb (ix2 r k)) = V c main_v9 (ix2 a k)
  refine congrArg (V c main_v9) (funext fun ax => Fin.ext ?_)
  match ax with
  | ⟨0, _⟩ => show win0_0.index t (0 : Fin 2) * 8000 + 1 * r.val = a.val; omega
  | ⟨1, _⟩ => show win0_0.index t (1 : Fin 2) * 128 + 1 * k.val = k.val; omega

/-- The weight block at every point is the whole weight array. -/
theorem blk0_w (c : Dev nD) (t : Fin cfg0.N) (k : Fin 128) (j : Fin 128) :
    iblk0 V c 1 t (ix2 k j) = Wt0 V c (ix2 k j) := by
  obtain ⟨-, -, e2, e3, -⟩ := idx0 t
  show V c main_arg2 (((cfg0.win 1).blk t).view.emb (ix2 k j)) = V c main_arg2 (ix2 k j)
  refine congrArg (V c main_arg2) (funext fun ax => Fin.ext ?_)
  match ax with
  | ⟨0, _⟩ => show win0_1.index t (0 : Fin 2) * 128 + 1 * k.val = k.val; omega
  | ⟨1, _⟩ => show win0_1.index t (1 : Fin 2) * 128 + 1 * j.val = j.val; omega

/-- The bias block at every point is the whole bias array. -/
theorem blk0_b (c : Dev nD) (t : Fin cfg0.N) (j : Fin 128) :
    iblk0 V c 2 t (ix1 j) = B0 V c (ix1 j) := by
  obtain ⟨-, -, -, -, e4, -⟩ := idx0 t
  show V c main_arg3 (((cfg0.win 2).blk t).view.emb (ix1 j)) = V c main_arg3 (ix1 j)
  refine congrArg (V c main_arg3) (funext fun ax => Fin.ext ?_)
  match ax with
  | ⟨0, _⟩ => show win0_2.index t (0 : Fin 1) * 128 + 1 * j.val = j.val; omega

/-- WHAT POINT `t` WRITES BACK is block `t` of the layer of the whole arrays. -/
theorem flushed0 (c : Dev nD) (t : Fin cfg0.N) :
    (dat0 V c).flushed 3 t
      = ((cfg0.win 3).blk t).view.read (Elt Ideal) (dense (M := 400000) (K := 128) (N := 128) (X0 V c) (Wt0 V c) (B0 V c)) := by
  show (cfg0.win 3).cut (grid0.coords t) ((dat0 V c).after 3 t) = _
  rw [after0_3]
  unfold out0_3
  rw [View.canon_unit_zero off2]
  simp only [View.ld_unit_zero (S := S8000x128) off2, View.ld_unit_zero (S := S128x128) off2, View.ld_unit_zero (S := S128) off1]
  rw [pay0]
  have ht := lt0 t
  obtain ⟨-, -, -, -, -, e5, e6⟩ := idx0 t
  funext y
  obtain ⟨r, q, rfl⟩ : ∃ (r : Fin 8000) (q : Fin 128), y = ix2 r q := ⟨y 0, y 1, eq_ix2 y⟩
  show dense (M := 8000) (K := 128) (N := 128) (iblk0 V c 0 t) (iblk0 V c 1 t) (iblk0 V c 2 t) (ix2 r q)
    = dense (M := 400000) (K := 128) (N := 128) (X0 V c) (Wt0 V c) (B0 V c) (((cfg0.win 3).blk t).view.emb (ix2 r q))
  have hemb : ((cfg0.win 3).blk t).view.emb (ix2 r q) = ix2 (⟨t.val * 8000 + r.val, by omega⟩ : Fin 400000) q := by
    funext ax; apply Fin.ext
    match ax with
    | ⟨0, _⟩ => show win0_3.index t (0 : Fin 2) * 8000 + 1 * r.val = t.val * 8000 + r.val; omega
    | ⟨1, _⟩ => show win0_3.index t (1 : Fin 2) * 128 + 1 * q.val = q.val; omega
  rw [hemb]
  exact dense_congr (X0 V c) (iblk0 V c 0 t) (Wt0 V c) (iblk0 V c 1 t) (B0 V c) (iblk0 V c 2 t) r ⟨t.val * 8000 + r.val, by omega⟩ q
    (fun k => blk0_x V c t r k _ rfl) (fun k => blk0_w V c t k q) (blk0_b V c t q)

/-- An index of the output array is in point `t`'s block iff each coordinate is in the block's range on its axis. -/
theorem mem_blk0 (t : Fin cfg0.N) (i : S400000x128.Idx) :
    i ∈ ((cfg0.win 3).blk t).view.set ↔ ∀ a : Fin 2, win0_3.index t a * S8000x128.size a ≤ (i a).val
      ∧ (i a).val < win0_3.index t a * S8000x128.size a + S8000x128.size a := by
  show i ∈ ((View.whole main_v10).slice (win0_3.rect t)).set ↔ _
  rw [View.set_slice_whole, Rect.mem_set_unit]
  exact Iff.rfl

/-- THE BLOCKS TILE THE ARRAY: row `i` is in the block of point `i / 8000`. -/
theorem cover0 (i : S400000x128.Idx) :
    ∃ t : Fin cfg0.N, (cfg0.win 3).flush t = true ∧ i ∈ ((cfg0.win 3).blk t).view.set := by
  have hi0 : (i 0).val < 400000 := (i 0).isLt
  have hi1 : (i 1).val < 128 := (i 1).isLt
  let t : Fin cfg0.N := ⟨(i 0).val / 8000, by rw [show cfg0.N = 50 from N_0]; omega⟩
  have htv : t.val = (i 0).val / 8000 := rfl
  obtain ⟨-, -, -, -, -, e5, e6⟩ := idx0 t
  refine ⟨t, flush0_3 t, ?_⟩
  rw [mem_blk0]
  intro a
  match a with
  | ⟨0, _⟩ => show win0_3.index t (0 : Fin 2) * 8000 ≤ (i 0).val ∧ (i 0).val < win0_3.index t (0 : Fin 2) * 8000 + 8000; omega
  | ⟨1, _⟩ => show win0_3.index t (1 : Fin 2) * 128 ≤ (i 1).val ∧ (i 1).val < win0_3.index t (1 : Fin 2) * 128 + 128; omega

/-- THE OUTPUT ARRAY AFTER REGION 0 is the layer of the three arrays the region was entered with. -/
theorem final0 (c : Dev nD) :
    (dat0 V c).arrAt 3 cfg0.N = dense (M := 400000) (K := 128) (N := 128) (X0 V c) (Wt0 V c) (B0 V c) :=
  (dat0 V c).arrAt_eq_of_cover 3 _ (fun t _ => flushed0 V c t) cover0

end Cert.KernelIdeal.Arrays

end
-- ==== Proof.Region1.lean ====
/-
  REGION 1 of the idealized kernel program, read as a value: the second dense layer, `max (h · W + b) 0` from the
  200000 × 129 literal array to 200000 × 128, computed 8000 rows at a time at 25 grid points. The contraction runs over
  129 columns: the 128 clause embeddings and the clause feature joined to them.

  At any contents `V` of the TensorCore's buffers when the region is entered:
  * the body's one stored value is the layer of the three loaded blocks (`pay1`);
  * block `t` of the input is rows `8000·t … 8000·t + 7999` of the array, the weight and bias blocks are their whole
    arrays (`blk1_x`, `blk1_w`, `blk1_b`);
  * so what point `t` writes back is block `t` of the layer of the WHOLE arrays (`flushed1`);
  * the 25 output blocks tile the array — row `i` lies in block `i / 8000` — (`cover1`), so the output array ends
    holding the layer of the whole arrays (`final1`).
-/
import proofs.«155505_j24507083391230_1_alg».proof.Proof.Gen.KernelIdeal.Frame
import proofs.«155505_j24507083391230_1_alg».proof.Proof.Dense
import Idealize.ShloMosaic.Lib.Pipeline.Value

set_option maxRecDepth 16384

noncomputable section

namespace Cert.KernelIdeal.Arrays

open Cert.KernelIdeal Cert.KernelIdeal.Gen Cert.Dense
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- The three arrays region 1 reads, as it finds them: the scatter-summed literal messages, the weights, the bias. -/
abbrev X1 (c : Dev nD) : FVec Ideal S200000x129 .f32 := V c main_v21
abbrev Wt1 (c : Dev nD) : FVec Ideal S129x128 .f32 := V c main_arg4
abbrev B1 (c : Dev nD) : FVec Ideal S128 .f32 := V c main_arg5

/-- The body's stored value is the layer of its three loaded blocks: the printed dimension record is the plain
    rows × contraction by contraction × columns product. -/
theorem pay1 (x0 : Vec Ideal S8000x129 .f32) (x1 : Vec Ideal S129x128 .f32) (x2 : Vec Ideal S128 .f32) :
    k1_pay1 (F := Ideal) x0 x1 x2 = dense (M := 8000) (K := 129) (N := 128) x0 x1 x2 := by
  unfold k1_pay1
  exact dense_of_matmul (M := 8000) (K := 129) (N := 128) x0 x1 x2 none _ _ _ _ _

/-- The printed index maps over the 25 points: the input's and the output's row-block index is the point, every other
    block index is zero. -/
theorem idx1 : ∀ t : Fin cfg1.N, win1_0.index t (0 : Fin 2) = t.val ∧ win1_0.index t (1 : Fin 2) = 0
    ∧ win1_1.index t (0 : Fin 2) = 0 ∧ win1_1.index t (1 : Fin 2) = 0 ∧ win1_2.index t (0 : Fin 1) = 0
    ∧ win1_3.index t (0 : Fin 2) = t.val ∧ win1_3.index t (1 : Fin 2) = 0 :=
  (by decide +kernel : ∀ t : Fin grid1.N, _)

theorem lt1 (t : Fin cfg1.N) : t.val < 25 := N_1 ▸ t.isLt

/-- Row `r` of the input block at point `t` is row `8000·t + r` of the array. -/
theorem blk1_x (c : Dev nD) (t : Fin cfg1.N) (r : Fin 8000) (k : Fin 129) (a : Fin 200000) (ha : a.val = t.val * 8000 + r.val) :
    iblk1 V c 0 t (ix2 r k) = X1 V c (ix2 a k) := by
  obtain ⟨e0, e1, -⟩ := idx1 t
  show V c main_v21 (((cfg1.win 0).blk t).view.emb (ix2 r k)) = V c main_v21 (ix2 a k)
  refine congrArg (V c main_v21) (funext fun ax => Fin.ext ?_)
  match ax with
  | ⟨0, _⟩ => show win1_0.index t (0 : Fin 2) * 8000 + 1 * r.val = a.val; omega
  | ⟨1, _⟩ => show win1_0.index t (1 : Fin 2) * 129 + 1 * k.val = k.val; omega

/-- The weight block at every point is the whole weight array. -/
theorem blk1_w (c : Dev nD) (t : Fin cfg1.N) (k : Fin 129) (j : Fin 128) :
    iblk1 V c 1 t (ix2 k j) = Wt1 V c (ix2 k j) := by
  obtain ⟨-, -, e2, e3, -⟩ := idx1 t
  show V c main_arg4 (((cfg1.win 1).blk t).view.emb (ix2 k j)) = V c main_arg4 (ix2 k j)
  refine congrArg (V c main_arg4) (funext fun ax => Fin.ext ?_)
  match ax with
  | ⟨0, _⟩ => show win1_1.index t (0 : Fin 2) * 129 + 1 * k.val = k.val; omega
  | ⟨1, _⟩ => show win1_1.index t (1 : Fin 2) * 128 + 1 * j.val = j.val; omega

/-- The bias block at every point is the whole bias array. -/
theorem blk1_b (c : Dev nD) (t : Fin cfg1.N) (j : Fin 128) :
    iblk1 V c 2 t (ix1 j) = B1 V c (ix1 j) := by
  obtain ⟨-, -, -, -, e4, -⟩ := idx1 t
  show V c main_arg5 (((cfg1.win 2).blk t).view.emb (ix1 j)) = V c main_arg5 (ix1 j)
  refine congrArg (V c main_arg5) (funext fun ax => Fin.ext ?_)
  match ax with
  | ⟨0, _⟩ => show win1_2.index t (0 : Fin 1) * 128 + 1 * j.val = j.val; omega

/-- WHAT POINT `t` WRITES BACK is block `t` of the layer of the whole arrays. -/
theorem flushed1 (c : Dev nD) (t : Fin cfg1.N) :
    (dat1 V c).flushed 3 t
      = ((cfg1.win 3).blk t).view.read (Elt Ideal) (dense (M := 200000) (K := 129) (N := 128) (X1 V c) (Wt1 V c) (B1 V c)) := by
  show (cfg1.win 3).cut (grid1.coords t) ((dat1 V c).after 3 t) = _
  rw [after1_3]
  unfold out1_3
  rw [View.canon_unit_zero off2]
  simp only [View.ld_unit_zero (S := S8000x129) off2, View.ld_unit_zero (S := S129x128) off2, View.ld_unit_zero (S := S128) off1]
  rw [pay1]
  have ht := lt1 t
  obtain ⟨-, -, -, -, -, e5, e6⟩ := idx1 t
  funext y
  obtain ⟨r, q, rfl⟩ : ∃ (r : Fin 8000) (q : Fin 128), y = ix2 r q := ⟨y 0, y 1, eq_ix2 y⟩
  show dense (M := 8000) (K := 129) (N := 128) (iblk1 V c 0 t) (iblk1 V c 1 t) (iblk1 V c 2 t) (ix2 r q)
    = dense (M := 200000) (K := 129) (N := 128) (X1 V c) (Wt1 V c) (B1 V c) (((cfg1.win 3).blk t).view.emb (ix2 r q))
  have hemb : ((cfg1.win 3).blk t).view.emb (ix2 r q) = ix2 (⟨t.val * 8000 + r.val, by omega⟩ : Fin 200000) q := by
    funext ax; apply Fin.ext
    match ax with
    | ⟨0, _⟩ => show win1_3.index t (0 : Fin 2) * 8000 + 1 * r.val = t.val * 8000 + r.val; omega
    | ⟨1, _⟩ => show win1_3.index t (1 : Fin 2) * 128 + 1 * q.val = q.val; omega
  rw [hemb]
  exact dense_congr (X1 V c) (iblk1 V c 0 t) (Wt1 V c) (iblk1 V c 1 t) (B1 V c) (iblk1 V c 2 t) r ⟨t.val * 8000 + r.val, by omega⟩ q
    (fun k => blk1_x V c t r k _ rfl) (fun k => blk1_w V c t k q) (blk1_b V c t q)

/-- An index of the output array is in point `t`'s block iff each coordinate is in the block's range on its axis. -/
theorem mem_blk1 (t : Fin cfg1.N) (i : S200000x128.Idx) :
    i ∈ ((cfg1.win 3).blk t).view.set ↔ ∀ a : Fin 2, win1_3.index t a * S8000x128.size a ≤ (i a).val
      ∧ (i a).val < win1_3.index t a * S8000x128.size a + S8000x128.size a := by
  show i ∈ ((View.whole main_v22).slice (win1_3.rect t)).set ↔ _
  rw [View.set_slice_whole, Rect.mem_set_unit]
  exact Iff.rfl

/-- THE BLOCKS TILE THE ARRAY: row `i` is in the block of point `i / 8000`. -/
theorem cover1 (i : S200000x128.Idx) :
    ∃ t : Fin cfg1.N, (cfg1.win 3).flush t = true ∧ i ∈ ((cfg1.win 3).blk t).view.set := by
  have hi0 : (i 0).val < 200000 := (i 0).isLt
  have hi1 : (i 1).val < 128 := (i 1).isLt
  let t : Fin cfg1.N := ⟨(i 0).val / 8000, by rw [show cfg1.N = 25 from N_1]; omega⟩
  have htv : t.val = (i 0).val / 8000 := rfl
  obtain ⟨-, -, -, -, -, e5, e6⟩ := idx1 t
  refine ⟨t, flush1_3 t, ?_⟩
  rw [mem_blk1]
  intro a
  match a with
  | ⟨0, _⟩ => show win1_3.index t (0 : Fin 2) * 8000 ≤ (i 0).val ∧ (i 0).val < win1_3.index t (0 : Fin 2) * 8000 + 8000; omega
  | ⟨1, _⟩ => show win1_3.index t (1 : Fin 2) * 128 ≤ (i 1).val ∧ (i 1).val < win1_3.index t (1 : Fin 2) * 128 + 128; omega

/-- THE OUTPUT ARRAY AFTER REGION 1 is the layer of the three arrays the region was entered with. -/
theorem final1 (c : Dev nD) :
    (dat1 V c).arrAt 3 cfg1.N = dense (M := 200000) (K := 129) (N := 128) (X1 V c) (Wt1 V c) (B1 V c) :=
  (dat1 V c).arrAt_eq_of_cover 3 _ (fun t _ => flushed1 V c t) cover1

end Cert.KernelIdeal.Arrays

end
-- ==== Proof.KernelValue.lean ====
/-
  THE IDEALIZED KERNEL PROGRAM'S RESULT AS ONE FUNCTION OF ITS ARGUMENTS.

  @main is: a stretch of host operations that gathers the literal features at `edge_lit` and scatter-sums them at
  `edge_clause` (`clauseSum`); region 0, the first dense layer; a second stretch that joins the clause feature as a
  129th column, gathers the rows at `edge_clause` and scatter-sums them at `edge_lit` (`literalSum`); region 1, the
  second dense layer, whose output array is the result. Read back from the last boundary of the run to the launch:
  the result is `dense (literalSum (dense (clauseSum x e_l e_c) W₁ b₁) f e_l e_c) W₂ b₂`. The two host stretches are carried
  as two named functions and never opened: the reference applies the very same operations.
-/
import proofs.«155505_j24507083391230_1_alg».proof.Proof.KernelRun
import proofs.«155505_j24507083391230_1_alg».proof.Proof.Region0
import proofs.«155505_j24507083391230_1_alg».proof.Proof.Region1
import Idealize.ShloMosaic.Lib.StableHlo.Run

set_option maxRecDepth 16384

noncomputable section

namespace Cert.KernelIdeal.Result

open Cert.KernelIdeal Cert.KernelIdeal.Gen Cert.KernelIdeal.Arrays Cert.Dense
open Idealize.ShloMosaic Idealize.ShloMosaic.TcCoe Idealize.SL.Sem Idealize.ShloMosaic.StableHlo

/-- The first host stretch: row `e` of the gathered array is the literal row `edge_lit[e]` (a negative index counted from
    the end), and the rows are summed into the clause rows `edge_clause[e]`, from zero. -/
def clauseSum (a0 : FVec Ideal S200000x128 .f32) (a6 a7 : IVec S1600000 32) : FVec Ideal S400000x128 .f32 :=
  Host.scatterAdd (F := Ideal) scatter_S400000x128_S1600000x1_S1600000x128_1_0_0_1
    (broadcastInDim S400000x128 ![] bcast_S_S400000x128 (constant (F := Ideal) S_ .f32 0x00000000#32))
    (broadcastInDim S1600000x1 ![0] bcast_S1600000_S1600000x1_0 a7)
    (Host.gather gather_S200000x128_S1600000x1_S1600000x128_1_0_n_n_0_1_1128 a0
      (broadcastInDim S1600000x1 ![0] bcast_S1600000_S1600000x1_0
        (select (cmpi .slt a6 (broadcastInDim S1600000 ![] bcast_S_S1600000 (constantI S_ 32 0#32)))
          (addi a6 (broadcastInDim S1600000 ![] bcast_S_S1600000 (constantI S_ 32 200000#32))) a6)))

/-- The second host stretch: the clause feature joined to the clause embeddings as a 129th column, the rows gathered at
    `edge_clause` and summed into the literal rows `edge_lit[e]`, from zero. -/
def literalSum (h : FVec Ideal S400000x128 .f32) (a1 : FVec Ideal S400000x1 .f32) (a6 a7 : IVec S1600000 32) :
    FVec Ideal S200000x129 .f32 :=
  Host.scatterAdd (F := Ideal) scatter_S200000x129_S1600000x1_S1600000x129_1_0_0_1
    (broadcastInDim S200000x129 ![] bcast_S_S200000x129 (constant (F := Ideal) S_ .f32 0x00000000#32))
    (broadcastInDim S1600000x1 ![0] bcast_S1600000_S1600000x1_0 a6)
    (Host.gather gather_S400000x129_S1600000x1_S1600000x129_1_0_n_n_0_1_1129
      (concatenate S400000x129 1 [⟨S400000x128, h⟩, ⟨S400000x1, a1⟩] concatenates_S400000x128_S400000x1_S400000x129_d1)
      (broadcastInDim S1600000x1 ![0] bcast_S1600000_S1600000x1_0
        (select (cmpi .slt a7 (broadcastInDim S1600000 ![] bcast_S_S1600000 (constantI S_ 32 0#32)))
          (addi a7 (broadcastInDim S1600000 ![] bcast_S_S1600000 (constantI S_ 32 400000#32))) a7)))

variable (m : (ℓ : Loc nD τ sig) → Buf (Elt Ideal) ℓ) (ρ : Dev nD → PrngReg)

/-- No operation of a host stretch writes the buffer: the list of written buffers, one inequality each. -/
local macro "not_written " ops:ident : tactic => `(tactic| (
  simp only [$ops:ident, List.flatten_cons, List.flatten_nil, List.append_nil, List.cons_append,
    List.nil_append, List.Forall, StableHlo.nullary_writes, StableHlo.unary_writes, StableHlo.binary_writes, StableHlo.ternary_writes,
    StableHlo.quaternary_writes, StableHlo.reshape_writes, StableHlo.binaryIndexed_writes, Finset.mem_singleton]
  repeat' apply And.intro
  all_goals exact StableHlo.devRef_ne_of_ne (by decide)))

/-! ## The arguments at the boundaries: no host operation writes one, a region only reads them -/

theorem W1_arg1 (c : Dev nD) : W1 m ρ c (Proc.devRef .tc main_arg1) = m ((c.tc : Thread nD τ).loc main_arg1) :=
  (StableHlo.after_of_forall_not_mem (b := Proc.devRef .tc main_arg1) _ _ (List.forall_iff_forall_mem.mp (by not_written hostOps0))).trans rfl
theorem W1_arg2 (c : Dev nD) : W1 m ρ c (Proc.devRef .tc main_arg2) = m ((c.tc : Thread nD τ).loc main_arg2) :=
  (StableHlo.after_of_forall_not_mem (b := Proc.devRef .tc main_arg2) _ _ (List.forall_iff_forall_mem.mp (by not_written hostOps0))).trans rfl
theorem W1_arg3 (c : Dev nD) : W1 m ρ c (Proc.devRef .tc main_arg3) = m ((c.tc : Thread nD τ).loc main_arg3) :=
  (StableHlo.after_of_forall_not_mem (b := Proc.devRef .tc main_arg3) _ _ (List.forall_iff_forall_mem.mp (by not_written hostOps0))).trans rfl
theorem W1_arg4 (c : Dev nD) : W1 m ρ c (Proc.devRef .tc main_arg4) = m ((c.tc : Thread nD τ).loc main_arg4) :=
  (StableHlo.after_of_forall_not_mem (b := Proc.devRef .tc main_arg4) _ _ (List.forall_iff_forall_mem.mp (by not_written hostOps0))).trans rfl
theorem W1_arg5 (c : Dev nD) : W1 m ρ c (Proc.devRef .tc main_arg5) = m ((c.tc : Thread nD τ).loc main_arg5) :=
  (StableHlo.after_of_forall_not_mem (b := Proc.devRef .tc main_arg5) _ _ (List.forall_iff_forall_mem.mp (by not_written hostOps0))).trans rfl
theorem W1_arg6 (c : Dev nD) : W1 m ρ c (Proc.devRef .tc main_arg6) = m ((c.tc : Thread nD τ).loc main_arg6) :=
  (StableHlo.after_of_forall_not_mem (b := Proc.devRef .tc main_arg6) _ _ (List.forall_iff_forall_mem.mp (by not_written hostOps0))).trans rfl
theorem W1_arg7 (c : Dev nD) : W1 m ρ c (Proc.devRef .tc main_arg7) = m ((c.tc : Thread nD τ).loc main_arg7) :=
  (StableHlo.after_of_forall_not_mem (b := Proc.devRef .tc main_arg7) _ _ (List.forall_iff_forall_mem.mp (by not_written hostOps0))).trans rfl

theorem W2_arg1 (c : Dev nD) : W2 m ρ c (Proc.devRef .tc main_arg1) = m ((c.tc : Thread nD τ).loc main_arg1) :=
  (W2_of_ne m ρ c main_arg1 (by decide)).trans (W1_arg1 m ρ c)
theorem W2_arg4 (c : Dev nD) : W2 m ρ c (Proc.devRef .tc main_arg4) = m ((c.tc : Thread nD τ).loc main_arg4) :=
  (W2_of_ne m ρ c main_arg4 (by decide)).trans (W1_arg4 m ρ c)
theorem W2_arg5 (c : Dev nD) : W2 m ρ c (Proc.devRef .tc main_arg5) = m ((c.tc : Thread nD τ).loc main_arg5) :=
  (W2_of_ne m ρ c main_arg5 (by decide)).trans (W1_arg5 m ρ c)
theorem W2_arg6 (c : Dev nD) : W2 m ρ c (Proc.devRef .tc main_arg6) = m ((c.tc : Thread nD τ).loc main_arg6) :=
  (W2_of_ne m ρ c main_arg6 (by decide)).trans (W1_arg6 m ρ c)
theorem W2_arg7 (c : Dev nD) : W2 m ρ c (Proc.devRef .tc main_arg7) = m ((c.tc : Thread nD τ).loc main_arg7) :=
  (W2_of_ne m ρ c main_arg7 (by decide)).trans (W1_arg7 m ρ c)

theorem W3_arg4 (c : Dev nD) : W3 m ρ c (Proc.devRef .tc main_arg4) = m ((c.tc : Thread nD τ).loc main_arg4) :=
  (StableHlo.after_of_forall_not_mem (b := Proc.devRef .tc main_arg4) _ _ (List.forall_iff_forall_mem.mp (by not_written hostOps1))).trans (W2_arg4 m ρ c)
theorem W3_arg5 (c : Dev nD) : W3 m ρ c (Proc.devRef .tc main_arg5) = m ((c.tc : Thread nD τ).loc main_arg5) :=
  (StableHlo.after_of_forall_not_mem (b := Proc.devRef .tc main_arg5) _ _ (List.forall_iff_forall_mem.mp (by not_written hostOps1))).trans (W2_arg5 m ρ c)

/-! ## The two stretches' results -/

/-- Region 0 is entered with the clause sums in its input array. -/
theorem W1_v9 (c : Dev nD) : W1 m ρ c (Proc.devRef .tc main_v9) = clauseSum (m ((c.tc : Thread nD τ).loc main_arg0)) (m ((c.tc : Thread nD τ).loc main_arg6)) (m ((c.tc : Thread nD τ).loc main_arg7)) := by
  show StableHlo.after hostOps0 (W0 m ρ c) (Proc.devRef .tc main_v9) = _
  unfold clauseSum
  after_results

/-- Region 0 leaves the first layer of them in its output array. -/
theorem W2_v10 (c : Dev nD) : W2 m ρ c (Proc.devRef .tc main_v10)
    = dense (M := 400000) (K := 128) (N := 128) (clauseSum (m ((c.tc : Thread nD τ).loc main_arg0)) (m ((c.tc : Thread nD τ).loc main_arg6)) (m ((c.tc : Thread nD τ).loc main_arg7))) (m ((c.tc : Thread nD τ).loc main_arg2)) (m ((c.tc : Thread nD τ).loc main_arg3)) :=
  (W2_arr m ρ c 3).trans ((final0 (V1 m ρ) c).trans (dense_eq (W1_v9 m ρ c) (W1_arg2 m ρ c) (W1_arg3 m ρ c)))

/-- Region 1 is entered with the literal sums of that layer in its input array. -/
theorem W3_v21 (c : Dev nD) : W3 m ρ c (Proc.devRef .tc main_v21)
    = literalSum (W2 m ρ c (Proc.devRef .tc main_v10)) (W2 m ρ c (Proc.devRef .tc main_arg1))
        (W2 m ρ c (Proc.devRef .tc main_arg6)) (W2 m ρ c (Proc.devRef .tc main_arg7)) := by
  show StableHlo.after hostOps1 (W2 m ρ c) (Proc.devRef .tc main_v21) = _
  unfold literalSum
  after_results

/-- THE RESULT BUFFER at the run's last boundary, as one function of the launch memory's arguments. -/
theorem result_eq (c : Dev nD) : W4 m ρ c (Proc.devRef .tc main_v22)
    = dense (M := 200000) (K := 129) (N := 128)
        (literalSum (dense (M := 400000) (K := 128) (N := 128) (clauseSum (m ((c.tc : Thread nD τ).loc main_arg0)) (m ((c.tc : Thread nD τ).loc main_arg6)) (m ((c.tc : Thread nD τ).loc main_arg7))) (m ((c.tc : Thread nD τ).loc main_arg2)) (m ((c.tc : Thread nD τ).loc main_arg3)))
          (m ((c.tc : Thread nD τ).loc main_arg1)) (m ((c.tc : Thread nD τ).loc main_arg6)) (m ((c.tc : Thread nD τ).loc main_arg7)))
        (m ((c.tc : Thread nD τ).loc main_arg4)) (m ((c.tc : Thread nD τ).loc main_arg5)) := by
  refine (W4_arr m ρ c 3).trans ((final1 (V3 m ρ) c).trans (dense_eq ?_ (W3_arg4 m ρ c) (W3_arg5 m ρ c)))
  refine (W3_v21 m ρ c).trans ?_
  rw [W2_v10, W2_arg1, W2_arg6, W2_arg7]

/-- The run, read: the result at that function of the arguments, the arguments as launched. -/
theorem run : θ_run defs (onTc (τ := τ) (main (F := Ideal))) ⟨m, fun _ => 0, ρ⟩ (fun r => ∀ c : Dev nD,
      r.2.mem ((c.tc : Thread nD τ).loc main_v22)
        = dense (M := 200000) (K := 129) (N := 128)
            (literalSum (dense (M := 400000) (K := 128) (N := 128) (clauseSum (m ((c.tc : Thread nD τ).loc main_arg0)) (m ((c.tc : Thread nD τ).loc main_arg6)) (m ((c.tc : Thread nD τ).loc main_arg7))) (m ((c.tc : Thread nD τ).loc main_arg2)) (m ((c.tc : Thread nD τ).loc main_arg3)))
              (m ((c.tc : Thread nD τ).loc main_arg1)) (m ((c.tc : Thread nD τ).loc main_arg6)) (m ((c.tc : Thread nD τ).loc main_arg7)))
            (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨(h c).1.trans (result_eq m ρ c), (h c).2⟩) (Cert.KernelIdeal.Run.run_result m ρ)

end Cert.KernelIdeal.Result

end
-- ==== Proof.RefValue.lean ====
/-
  THE IDEALIZED REFERENCE'S RESULT AS THE SAME FUNCTION OF ITS ARGUMENTS.

  The reference applies, in order: the gather at `edge_lit` and the scatter-sum at `edge_clause` (`clauseSum`); a
  `dot_general` with the first weights, the bias broadcast along the rows, a maximum with zero — the first dense layer in
  the host's spelling —; the join with the clause feature, the gather at `edge_clause` and the scatter-sum at `edge_lit`
  (`literalSum`); and the second dense layer in the same spelling. Each layer's spelling is `Cert.Dense.dense`
  (`dense_of_dotGeneral`), so the run's result is `dense (literalSum (dense (clauseSum x e_l e_c) W₁ b₁) f e_l e_c) W₂ b₂`.
-/
import proofs.«155505_j24507083391230_1_alg».proof.Proof.Gen.ReferenceIdeal.Run
import proofs.«155505_j24507083391230_1_alg».proof.Proof.Dense

set_option maxRecDepth 16384

noncomputable section

namespace Cert.ReferenceIdeal.Result

open Cert.ReferenceIdeal Cert.ReferenceIdeal.Gen Cert.Dense
open Idealize.ShloMosaic Idealize.ShloMosaic.TcCoe Idealize.SL.Sem Idealize.ShloMosaic.StableHlo

/-- The gather of the literal rows at `edge_lit` (a negative index counted from the end) summed into the clause rows
    `edge_clause[e]`, from zero. -/
def clauseSum (a0 : FVec Ideal S200000x128 .f32) (a6 a7 : IVec S1600000 32) : FVec Ideal S400000x128 .f32 :=
  Host.scatterAdd (F := Ideal) scatter_S400000x128_S1600000x1_S1600000x128_1_0_0_1
    (broadcastInDim S400000x128 ![] bcast_S_S400000x128 (constant (F := Ideal) S_ .f32 0x00000000#32))
    (broadcastInDim S1600000x1 ![0] bcast_S1600000_S1600000x1_0 a7)
    (Host.gather gather_S200000x128_S1600000x1_S1600000x128_1_0_n_n_0_1_1128 a0
      (broadcastInDim S1600000x1 ![0] bcast_S1600000_S1600000x1_0
        (select (cmpi .slt a6 (broadcastInDim S1600000 ![] bcast_S_S1600000 (constantI S_ 32 0#32)))
          (addi a6 (broadcastInDim S1600000 ![] bcast_S_S1600000 (constantI S_ 32 200000#32))) a6)))

/-- The clause feature joined to the clause embeddings as a 129th column, the rows gathered at `edge_clause` and summed
    into the literal rows `edge_lit[e]`, from zero. -/
def literalSum (h : FVec Ideal S400000x128 .f32) (a1 : FVec Ideal S400000x1 .f32) (a6 a7 : IVec S1600000 32) :
    FVec Ideal S200000x129 .f32 :=
  Host.scatterAdd (F := Ideal) scatter_S200000x129_S1600000x1_S1600000x129_1_0_0_1
    (broadcastInDim S200000x129 ![] bcast_S_S200000x129 (constant (F := Ideal) S_ .f32 0x00000000#32))
    (broadcastInDim S1600000x1 ![0] bcast_S1600000_S1600000x1_0 a6)
    (Host.gather gather_S400000x129_S1600000x1_S1600000x129_1_0_n_n_0_1_1129
      (concatenate S400000x129 1 [⟨S400000x128, h⟩, ⟨S400000x1, a1⟩] concatenates_S400000x128_S400000x1_S400000x129_d1)
      (broadcastInDim S1600000x1 ![0] bcast_S1600000_S1600000x1_0
        (select (cmpi .slt a7 (broadcastInDim S1600000 ![] bcast_S_S1600000 (constantI S_ 32 0#32)))
          (addi a7 (broadcastInDim S1600000 ![] bcast_S_S1600000 (constantI S_ 32 400000#32))) a7)))

/-- The printed dimension records are the plain rows × contraction by contraction × columns product. -/
theorem dotA : dot_S400000x128_S128x128_S400000x128_1_0_0_1_n_n = DotDims.plain 400000 128 128 := rfl
theorem dotB : dot_S200000x129_S129x128_S200000x128_1_0_0_1_n_n = DotDims.plain 200000 129 128 := rfl

/-- The first layer in the host's spelling is the layer. -/
theorem layerA (x : FVec Ideal S400000x128 .f32) (w : FVec Ideal S128x128 .f32) (b : FVec Ideal S128 .f32) :
    maximumf (addf (Host.dotGeneral dot_S400000x128_S128x128_S400000x128_1_0_0_1_n_n none x w)
        (broadcastInDim S400000x128 ![0, 1] bcast_S1x128_S400000x128_0_1 (broadcastInDim S1x128 ![1] bcast_S128_S1x128_1 b)))
      (broadcastInDim S400000x128 ![] bcast_S_S400000x128 (constant (F := Ideal) S_ .f32 0x00000000#32))
      = dense (M := 400000) (K := 128) (N := 128) x w b := by
  rw [dotA]
  exact dense_of_dotGeneral (M := 400000) (K := 128) (N := 128) x w b none _ _ _

/-- The second layer in the host's spelling is the layer. -/
theorem layerB (x : FVec Ideal S200000x129 .f32) (w : FVec Ideal S129x128 .f32) (b : FVec Ideal S128 .f32) :
    maximumf (addf (Host.dotGeneral dot_S200000x129_S129x128_S200000x128_1_0_0_1_n_n none x w)
        (broadcastInDim S200000x128 ![0, 1] bcast_S1x128_S200000x128_0_1 (broadcastInDim S1x128 ![1] bcast_S128_S1x128_1 b)))
      (broadcastInDim S200000x128 ![] bcast_S_S200000x128 (constant (F := Ideal) S_ .f32 0x00000000#32))
      = dense (M := 200000) (K := 129) (N := 128) x w b := by
  rw [dotB]
  exact dense_of_dotGeneral (M := 200000) (K := 129) (N := 128) x w b none _ _ _

variable (m : (ℓ : Loc nD τ sig) → Buf (Elt Ideal) ℓ) (ρ : Dev nD → PrngReg)

/-- The run, read: the result at that function of the arguments, the arguments as launched. -/
theorem run : θ_run defs (onTc (τ := τ) (main (F := Ideal))) ⟨m, fun _ => 0, ρ⟩ (fun r => ∀ c : Dev nD,
      r.2.mem ((c.tc : Thread nD τ).loc main_v30)
        = dense (M := 200000) (K := 129) (N := 128)
            (literalSum (dense (M := 400000) (K := 128) (N := 128) (clauseSum (m ((c.tc : Thread nD τ).loc main_arg0)) (m ((c.tc : Thread nD τ).loc main_arg6)) (m ((c.tc : Thread nD τ).loc main_arg7))) (m ((c.tc : Thread nD τ).loc main_arg2)) (m ((c.tc : Thread nD τ).loc main_arg3)))
              (m ((c.tc : Thread nD τ).loc main_arg1)) (m ((c.tc : Thread nD τ).loc main_arg6)) (m ((c.tc : Thread nD τ).loc main_arg7)))
            (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨(h c).1.trans (by
      unfold literalSum clauseSum
      rw [layerA, layerB]), (h c).2⟩)
    (Cert.ReferenceIdeal.Value.run (F := Ideal) m ρ)

end Cert.ReferenceIdeal.Result

end
-- ==== Proof.lean ====
/-
  The certificate of the two-layer message-passing kernel against its jnp reference, over the extended reals.

  Both programs compute, from literal features `x`, clause features `f`, two weight matrices and biases, and the edge
  lists `e_l`, `e_c`:   `dense (literalSum (dense (clauseSum x e_l e_c) W₁ b₁) f e_l e_c) W₂ b₂`,
  where `clauseSum` gathers literal rows along the edges and sums them per clause, `literalSum` joins the clause feature
  as a 129th column, gathers clause rows along the edges and sums them per literal, and `dense h W b = max (h · W + b) 0`
  entry by entry (Proof/Dense.lean). The kernel program runs each `dense` as a pallas_call over blocks of 8000 rows, with
  the operands narrowed to bf16 and the product accumulated into a zero splat; at the ideal values narrowing is the
  identity and `0 + s = s`, each block of the output is the block of the whole-array layer, and the blocks tile the
  array (Proof/Region0.lean, Proof/Region1.lean), so the run's result is that function (Proof/KernelValue.lean). The
  reference spells each `dense` as a `dot_general`, a bias broadcast and a maximum with zero: the same function
  (Proof/RefValue.lean). The gathers and scatter-sums are the same operations in both programs and are never opened.
  No step uses a law of the extended reals that needs finite entries, so the precondition is not opened either.
  The ideal pass rewrote nothing: `preserves` is `True`.
-/
import proofs.«155505_j24507083391230_1_alg».proof.Defs
import proofs.«155505_j24507083391230_1_alg».proof.Proof.Gen.Kernel
import proofs.«155505_j24507083391230_1_alg».proof.Proof.Gen.Kernel.Skeleton
import proofs.«155505_j24507083391230_1_alg».proof.Proof.Gen.Kernel.Launch
import proofs.«155505_j24507083391230_1_alg».proof.Proof.Gen.Kernel.Points
import proofs.«155505_j24507083391230_1_alg».proof.Proof.Gen.Kernel.Frame
import proofs.«155505_j24507083391230_1_alg».proof.Proof.Gen.KernelIdeal
import proofs.«155505_j24507083391230_1_alg».proof.Proof.Gen.KernelIdeal.Skeleton
import proofs.«155505_j24507083391230_1_alg».proof.Proof.Gen.KernelIdeal.Launch
import proofs.«155505_j24507083391230_1_alg».proof.Proof.Gen.KernelIdeal.Points
import proofs.«155505_j24507083391230_1_alg».proof.Proof.Gen.KernelIdeal.Frame
import proofs.«155505_j24507083391230_1_alg».proof.Proof.Gen.ReferenceIdeal
import proofs.«155505_j24507083391230_1_alg».proof.Proof.Gen.Pre_finite_inputs
import proofs.«155505_j24507083391230_1_alg».proof.Proof.Gen.ReferenceIdeal.Run
import proofs.«155505_j24507083391230_1_alg».proof.Proof.KernelValue
import proofs.«155505_j24507083391230_1_alg».proof.Proof.RefValue
import Idealize.ShloMosaic.Adequacy
import Idealize.ShloMosaic.Init

noncomputable section

namespace Cert.Proof

open Idealize.ShloMosaic Idealize.SL.Sem

/-- The two programs' first host stretch is one function: the same operations over the same dimension records. -/
theorem clauseSum_same (a0 : FVec Ideal Cert.KernelIdeal.S200000x128 .f32) (a6 a7 : IVec Cert.KernelIdeal.S1600000 32) :
    Cert.ReferenceIdeal.Result.clauseSum a0 a6 a7 = Cert.KernelIdeal.Result.clauseSum a0 a6 a7 := rfl

/-- And so is their second. -/
theorem literalSum_same (h : FVec Ideal Cert.KernelIdeal.S400000x128 .f32) (a1 : FVec Ideal Cert.KernelIdeal.S400000x1 .f32)
    (a6 a7 : IVec Cert.KernelIdeal.S1600000 32) :
    Cert.ReferenceIdeal.Result.literalSum h a1 a6 a7 = Cert.KernelIdeal.Result.literalSum h a1 a6 a7 := rfl

/-- From memories that agree on the arguments both programs end with the result at the one function of them. -/
theorem algebraic : Cert.algebraic_KernelIdeal_ReferenceIdeal := by
  intro m ρ m' ρ' _ hagree
  refine ⟨_, Cert.KernelIdeal.Result.run m ρ, ?_⟩
  refine (θ_run Cert.ReferenceIdeal.defs _ _).mono (fun r h c => ⟨(h c).1.trans ?_, (h c).2⟩)
    (Cert.ReferenceIdeal.Result.run m' ρ')
  obtain ⟨e0, e1, e2, e3, e4, e5, e6, e7⟩ := hagree c
  rw [e0, e1, e2, e3, e4, e5, e6, e7, clauseSum_same, literalSum_same]

theorem claim : Cert.Claim :=
  ⟨Cert.Kernel.Gen.facts, Cert.KernelIdeal.Gen.facts, Cert.ReferenceIdeal.Gen.facts, Cert.Pre_finite_inputs.Gen.facts,
    fun m ρ _ => Cert.Kernel.Gen.frame m ρ,
    fun m ρ _ => Cert.KernelIdeal.Gen.frame m ρ,
    fun m ρ _ => (θ_run Cert.ReferenceIdeal.defs _ _).mono (fun _ h c => (h c).2) (Cert.ReferenceIdeal.Value.run (F := Ideal) m ρ),
    trivial,
    algebraic⟩

end Cert.Proof

end
